-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S800000x64 .f32) (main_arg1 : FVec F S800000x64 .f32) (main_arg2 : IVec S800000 32) (main_arg3 : FVec F S128x64 .f32) (main_arg4 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S8000x64 : Shape := ⟨2, ![8000, 64]⟩
abbrev S_ : Shape := ⟨0, ![]⟩
abbrev S50000x64 : Shape := ⟨2, ![50000, 64]⟩
abbrev S800000x1 : Shape := ⟨2, ![800000, 1]⟩

abbrev nBuf : Space → Nat
  | .hbm => 13
  | .vmem => 9
  | .smem => 0
  | _ => 0

abbrev bufTy : (tb : Table) → Fin (tcTables nBuf tb) → BufTy
  | .hbm, ⟨0, _⟩ => ⟨S800000x64, .f32⟩
  | .hbm, ⟨1, _⟩ => ⟨S800000x64, .f32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S1x64, .f32⟩
  | .hbm, ⟨8, _⟩ => ⟨S800000x64, .f32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  bcast_S800000_S800000x1_0 : S800000.BroadcastsInDim S800000x1 (![0] : Fin 1 → Fin S800000x1.rank)
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x64 : Shape := ⟨2, ![800000, 64]⟩
abbrev S800000 : Shape := ⟨1, ![800000]⟩
abbrev S128x64 : Shape := ⟨2, ![128, 64]⟩
abbrev S64 : Shape := ⟨1, ![64]⟩
abbrev S800000x128 : Shape := ⟨2, ![800000, 128]⟩
abbrev S1x64 : Shape := ⟨2, ![1, 64]⟩
abbrev S_ : Shape := ⟨0, ![]⟩
abbrev S50000x64 : Shape := ⟨2, ![50000, 64]⟩
abbrev S800000x1 : Shape := ⟨2, ![800000, 1]⟩

abbrev nBuf : Space → Nat
  | .hbm => 17
  | .vmem => 0
  | .smem => 0
  | _ => 0

abbrev bufTy : (tb : Table) → Fin (tcTables nBuf tb) → BufTy
  | .hbm, ⟨0, _⟩ => ⟨S800000x64, .f32⟩
  | .hbm, ⟨1, _⟩ => ⟨S800000x64, .f32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S800000x128, .f32⟩
  | .hbm, ⟨6, _⟩ => ⟨S800000x64, .f32⟩
  | .hbm, ⟨7, _⟩ => ⟨S1x64, .f32⟩
  | .hbm, ⟨8, _⟩ => ⟨S800000x64, .f32⟩
  | .hbm, ⟨9, _⟩ => ⟨S800000x64, .f32⟩
  | .hbm, ⟨10, _⟩ => ⟨S_, .f32⟩
  | .hbm, ⟨11, _⟩ => ⟨S800000x64, .f32⟩
  | .hbm, ⟨12, _⟩ => ⟨S800000x64, .f32⟩
  | .hbm, ⟨13, _⟩ => ⟨S_, .f32⟩
  | .hbm, ⟨14, _⟩ => ⟨S50000x64, .f32⟩
  | .hbm, ⟨15, _⟩ => ⟨S800000x1, .i32⟩
  | .hbm, ⟨16, _⟩ => ⟨S50000x64, .f32⟩
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S800000_S800000x1_0 : S800000.BroadcastsInDim S800000x1 (![0] : Fin 1 → Fin S800000x1.rank)
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1

variable [Facts₀]

def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Message.lean ====
/-
  The edge message as ONE function of the argument arrays, and the one law of sums that joins the two programs.

  For edge `r` and output channel `j` the message is

      max ( Σ_{k<64} x_i[r,k] · W[k,j]  +  Σ_{k<64} x_j[r,k] · W[64+k,j]  +  b[j] ,  0 ).

  The kernel computes it in exactly this arrangement (two 64-term products, one per half of the weight matrix, added).
  The reference lays the two feature rows end to end and takes ONE 128-term product with the whole weight matrix; a sum
  over 128 indices is the sum over the first 64 plus the sum over the last 64 (`sum_halves`). That regrouping uses only
  that addition on the extended reals is commutative and associative, so no finiteness of the inputs is needed.
-/
import Idealize.ShloMosaic.Lib.ValueIdx
import Idealize.ShloMosaic.PureOps.Ideal.Laws
import Mathlib.Algebra.BigOperators.Fin

noncomputable section

namespace Cert.EdgeMlp

open Idealize.ShloMosaic Idealize.ShloMosaic.ValueIdx

/-- Row `k` of the upper half of the weight matrix (the rows that multiply `x_i`). -/
abbrev upper (k : Fin 64) : Fin 128 := ⟨k.val, by omega⟩
/-- Row `64 + k` of the weight matrix: row `k` of its lower half (the rows that multiply `x_j`). -/
abbrev lower (k : Fin 64) : Fin 128 := ⟨64 + k.val, by omega⟩

/-- The message of every edge, channel by channel, as a function of the four float arguments. -/
def message (xi xj : (⟨2, ![800000, 64]⟩ : Shape).Idx → EReal) (W : (⟨2, ![128, 64]⟩ : Shape).Idx → EReal)
    (b : (⟨1, ![64]⟩ : Shape).Idx → EReal) : (⟨2, ![800000, 64]⟩ : Shape).Idx → EReal := fun i =>
  max ((∑ k : Fin 64, xi (ix2 (i 0) k) * W (ix2 (upper k) (i 1))
        + ∑ k : Fin 64, xj (ix2 (i 0) k) * W (ix2 (lower k) (i 1)))
       + b (ix1 (i 1))) 0

/-- A sum over 128 indices is the sum over the first 64 plus the sum over the last 64. -/
theorem sum_halves {M : Type*} [AddCommMonoid M] (f : Fin 128 → M) :
    ∑ k : Fin 128, f k = ∑ k : Fin 64, f (upper k) + ∑ k : Fin 64, f (lower k) := by
  have h := Fin.sum_univ_add (a := 64) (b := 64) (f : Fin (64 + 64) → M)
  rw [h]
  rfl

end Cert.EdgeMlp

end
-- ==== Proof.Reference.lean ====
/-
  The reference's message array is the message function of the arguments.

  The reference lays row `r` of `x_i` and row `r` of `x_j` end to end (a 128-entry row), multiplies by the whole
  128 × 64 weight matrix, adds the bias along every row and clamps below at zero. Read at edge `r`, channel `j`:
  the first 64 entries of the joined row are `x_i[r, ·]` (`joined_upper`), the last 64 are `x_j[r, ·]`
  (`joined_lower`), so the 128-term product splits into the two 64-term products of the message (`sum_halves`).
-/
import proofs.«113563_j12463995093091_1_alg».proof.Defs
import proofs.«113563_j12463995093091_1_alg».proof.Proof.Gen.ReferenceIdeal.Run
import proofs.«113563_j12463995093091_1_alg».proof.Proof.Gen.ReferenceIdeal.Read
import proofs.«113563_j12463995093091_1_alg».proof.Proof.Message

noncomputable section

namespace Cert.ReferenceIdeal.EdgeValue

open Idealize.ShloMosaic Idealize.ShloMosaic.ValueIdx
open Cert.ReferenceIdeal Cert.ReferenceIdeal.Gen Cert.ReferenceIdeal.Read Cert.EdgeMlp

/-- In its first 64 columns the joined feature row is `x_i`'s row. -/
theorem joined_upper (x0 x1 : (⟨S800000x64, .f32⟩ : BufTy).Contents (Elt Ideal)) (i : S800000x64.Idx) (k : Fin 64) :
    val_main_v0 (F := Ideal) x0 x1 (lidx_main_v1 i (upper k)) = x0 (ix2 (i 0) k) := by
  unfold val_main_v0
  exact concatenate_pair_apply_left (1 : Fin S800000x128.rank) x0 x1 concatenates_S800000x64_S800000x64_S800000x128_d1
    (lidx_main_v1 i (upper k)) rfl (ix2 (i 0) k) (fun b => match b with | ⟨0, _⟩ => rfl | ⟨1, _⟩ => rfl)

/-- In its last 64 columns the joined feature row is `x_j`'s row, 64 columns back. -/
theorem joined_lower (x0 x1 : (⟨S800000x64, .f32⟩ : BufTy).Contents (Elt Ideal)) (i : S800000x64.Idx) (k : Fin 64) :
    val_main_v0 (F := Ideal) x0 x1 (lidx_main_v1 i (lower k)) = x1 (ix2 (i 0) k) := by
  unfold val_main_v0
  exact concatenate_pair_apply_right (1 : Fin S800000x128.rank) x0 x1 concatenates_S800000x64_S800000x64_S800000x128_d1
    (lidx_main_v1 i (lower k)) rfl rfl (ix2 (i 0) k)
    (fun b hb => match b, hb with | ⟨0, _⟩, _ => rfl | ⟨1, _⟩, hb => absurd rfl hb)
    (by show k.val + 64 = 64 + k.val; omega)

/-- The weight matrix is read at row `k` of the contraction, column `j` of the output. -/
theorem weight_index (i : S800000x64.Idx) (k : Fin 128) : ridx_main_v1 i k = ix2 k (i 1) :=
  funext fun a => match a with | ⟨0, _⟩ => rfl | ⟨1, _⟩ => rfl

/-- The bias, broadcast to one row and then down the rows, is read at the output's channel. -/
theorem bias_index (i : S800000x64.Idx) : idx_main_v2 (idx_main_v3 i) = ix1 (i 1) :=
  funext fun a => match a with | ⟨0, _⟩ => rfl

/-- THE REFERENCE'S MESSAGES: the array the reference returns second is the message function of its arguments. -/
theorem messages_eq (x0 x1 : (⟨S800000x64, .f32⟩ : BufTy).Contents (Elt Ideal)) (x3 : (⟨S128x64, .f32⟩ : BufTy).Contents (Elt Ideal))
    (x4 : (⟨S64, .f32⟩ : BufTy).Contents (Elt Ideal)) :
    val_main_v5 (F := Ideal) x0 x1 x3 x4 = message x0 x1 x3 x4 := by
  funext i
  rw [val_main_v5_apply, val_main_v4_apply, val_main_v1_apply, val_main_v3_apply, val_main_v2_apply,
    val_main_call0_v0_apply, val_main_call0_cst_apply, sum_halves]
  simp only [joined_upper, joined_lower, weight_index, bias_index, Ideal.maximumf_def, Ideal.addf_def, Ideal.ofBits_def,
    Ideal.ofBits_zero_f32]
  rfl

end Cert.ReferenceIdeal.EdgeValue

end
-- ==== Proof.KernelBody.lean ====
/-
  The kernel body's stored value, read at one entry of the block.

  At a grid point the body holds an 8000 × 64 block of `x_i`, the matching block of `x_j`, the two 64 × 64 halves of the
  weight matrix and the bias as one row. Its one store writes, at row `p` and channel `q` of the block,

      max ( Σ_{k<64} xi[p,k] · wu[k,q]  +  Σ_{k<64} xj[p,k] · wl[k,q]  +  bias[0,q] ,  0 ):

  each matrix product accumulates into zero, so it is the plain sum over the contracted axis (`product_apply`); the
  narrowing of the operands to bf16 changes nothing over the extended reals; the bias row is repeated down the rows
  (`bias_row_apply`).
-/
import proofs.«113563_j12463995093091_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.EdgeValue

open Idealize.ShloMosaic Idealize.ShloMosaic.ValueIdx
open Cert.KernelIdeal Cert.KernelIdeal.Gen

/-! ## The product's operand indices, axis by axis -/

theorem lhs_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_contracted (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_contracted (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_column (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A product of an 8000 × 64 block with a 64 × 64 matrix, accumulated into zero, at row `p` and column `q`: the sum
    over the 64 contracted indices of the products of row `p` of the block with column `q` of the matrix. -/
theorem product_apply (a : FVec Ideal S8000x64 .bf16) (w : FVec Ideal S64x64 .bf16) (p : Fin 8000) (q : Fin 64) :
    matmul dot_S8000x64_S64x64_S8000x64_1_0_0_1_n_n none a w (constant (F := Ideal) S8000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_row _ _
    | ⟨1, _⟩ => exact (lhs_contracted _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_contracted _ _).trans hk
    | ⟨1, _⟩ => exact rhs_column _ _)
  rw [el, er]

/-- The bias, held as one row and repeated down the 8000 rows of the block, reads at channel `q` whatever the row. -/
theorem bias_row_apply (x4 : Vec Ideal S1x64 .f32) (p : Fin 8000) (q : Fin 64) :
    broadcastTo S8000x64 x4 broadcasts_S1x64_S8000x64 (ix2 p q) = x4 (ix2 0 q) := by
  exact broadcastTo_apply x4 broadcasts_S1x64_S8000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- THE STORED VALUE at row `p`, channel `q` of the block. -/
theorem payload_apply (x0 x1 : Vec Ideal S8000x64 .f32) (x2 x3 : Vec Ideal S64x64 .f32) (x4 : Vec Ideal S1x64 .f32)
    (p : Fin 8000) (q : Fin 64) :
    k0_pay1 (F := Ideal) x0 x1 x2 x3 x4 (ix2 p q)
      = max ((∑ k : Fin 64, x0 (ix2 p k) * x2 (ix2 k q) + ∑ k : Fin 64, x1 (ix2 p k) * x3 (ix2 k q)) + x4 (ix2 0 q)) 0 := by
  unfold k0_pay1
  simp only [maximumf_apply, addf_apply, broadcast_apply, product_apply, truncf_apply, shapeCast_self,
    Ideal.ofBits_def, Ideal.ofBits_zero_f32]
  rw [bias_row_apply x4 p q]

end Cert.KernelIdeal.EdgeValue

end
-- ==== Proof.KernelBlocks.lean ====
/-
  From the blocks the grid points write to the whole message array.

  Grid point `t` (of 100) holds rows `8000 t … 8000 t + 7999` of `x_i` and of `x_j`, the whole upper and lower halves of
  the weight matrix (rows 0–63 and 64–127 of `W`, cut out before the launch) and the bias as a 1 × 64 row, and writes the
  same rows of the message array. Row `p` of the block is row `8000 t + p` of the array, so what the point writes is its
  block of the message function of the four arguments (`written_block`); the 100 blocks tile the 800000 rows
  (`rows_covered`), so after the launch the array IS that function (`messages_final`).
-/
import proofs.«113563_j12463995093091_1_alg».proof.Proof.Gen.KernelIdeal.Frame
import proofs.«113563_j12463995093091_1_alg».proof.Proof.KernelBody
import proofs.«113563_j12463995093091_1_alg».proof.Proof.Message
import Idealize.ShloMosaic.Lib.Pipeline.Value
import Idealize.ShloMosaic.Lib.StableHlo.Run
import Idealize.ShloMosaic.Lib.Tactic

noncomputable section

namespace Cert.KernelIdeal.EdgeValue

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- The message array as a function of the four float arguments as launched. -/
abbrev messages (c : Dev nD) : S800000x64.Idx → EReal :=
  message (m ((c : Thread nD τ).loc main_arg0)) (m ((c : Thread nD τ).loc main_arg1))
    (m ((c : Thread nD τ).loc main_arg3)) (m ((c : Thread nD τ).loc main_arg4))

/-- The message at edge `r`, channel `q`, named by its two coordinates. -/
theorem message_at (xi xj : (⟨2, ![800000, 64]⟩ : Shape).Idx → EReal) (W : (⟨2, ![128, 64]⟩ : Shape).Idx → EReal)
    (b : (⟨1, ![64]⟩ : Shape).Idx → EReal) (i : (⟨2, ![800000, 64]⟩ : Shape).Idx) (r : Fin 800000) (q : Fin 64)
    (h0 : i 0 = r) (h1 : i 1 = q) :
    message xi xj W b i = max ((∑ k : Fin 64, xi (ix2 r k) * W (ix2 (upper k) q)
        + ∑ k : Fin 64, xj (ix2 r k) * W (ix2 (lower k) q)) + b (ix1 q)) 0 := by
  subst h0 h1; rfl

/-- The index maps over the grid: the two feature windows and the output window move one block of rows per point;
    the weight halves and the bias stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What the launch finds in the arrays the host wrote before it -/

/-- The upper half of the weight matrix: rows 0–63 of `W`. -/
theorem upper_half (c : Dev nD) : (V m c main_v0 : S64x64.Idx → EReal)
    = extractStridedSlice S64x64 ![0, 0] (m ((c : Thread nD τ).loc main_arg3)) slices_S128x64_S64x64_0_0 := by
  show StableHlo.after hostOps0 (fun b => m (c, b)) (Proc.devRef .tc main_v0) = _
  after_results

/-- The lower half: rows 64–127 of `W`. -/
theorem lower_half (c : Dev nD) : (V m c main_v1 : S64x64.Idx → EReal)
    = extractStridedSlice S64x64 ![64, 0] (m ((c : Thread nD τ).loc main_arg3)) slices_S128x64_S64x64_64_0 := by
  show StableHlo.after hostOps0 (fun b => m (c, b)) (Proc.devRef .tc main_v1) = _
  after_results

/-- The bias as one row. -/
theorem bias_row (c : Dev nD) : (V m c main_v2 : S1x64.Idx → EReal)
    = shapeCast S1x64 (m ((c : Thread nD τ).loc main_arg4)) shapeCasts_S64_S1x64 := by
  show StableHlo.after hostOps0 (fun b => m (c, b)) (Proc.devRef .tc main_v2) = _
  after_results
  rfl

/-! ## The blocks a point holds, as entries of the arguments -/

/-- Row `p` of point `t`'s block of `x_i` is row `8000 t + p` of `x_i`. -/
theorem xi_block (c : Dev nD) (t : Fin cfg0.N) (p : Fin 8000) (k : Fin 64) (r : Fin 800000) (hr : r.val = 8000 * t.val + p.val) :
    (iblk m c 0 t : Vec Ideal S8000x64 .f32) (ix2 p k) = (m ((c : Thread nD τ).loc main_arg0) : S800000x64.Idx → EReal) (ix2 r k) := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 8000 + 1 * p.val = r.val; omega
  | ⟨1, _⟩ => show win0_0.index t (1 : Fin 2) * 64 + 1 * k.val = k.val; omega

/-- Row `p` of point `t`'s block of `x_j` is row `8000 t + p` of `x_j`. -/
theorem xj_block (c : Dev nD) (t : Fin cfg0.N) (p : Fin 8000) (k : Fin 64) (r : Fin 800000) (hr : r.val = 8000 * t.val + p.val) :
    (iblk m c 1 t : Vec Ideal S8000x64 .f32) (ix2 p k) = (m ((c : Thread nD τ).loc main_arg1) : S800000x64.Idx → EReal) (ix2 r k) := by
  obtain ⟨-, -, e0, e1, -⟩ := block_indices t
  unfold iblk
  rw [View.read_apply]
  show V m c main_arg1 _ = _
  rw [V_main_arg1]
  congr 1
  funext a
  apply Fin.ext
  match a with
  | ⟨0, _⟩ => show win0_1.index t (0 : Fin 2) * 8000 + 1 * p.val = r.val; omega
  | ⟨1, _⟩ => show win0_1.index t (1 : Fin 2) * 64 + 1 * k.val = k.val; omega

/-- The upper weight block at any point is rows 0–63 of `W`. -/
theorem upper_block (c : Dev nD) (t : Fin cfg0.N) (k q : Fin 64) :
    (iblk m c 2 t : Vec Ideal S64x64 .f32) (ix2 k q) = (m ((c : Thread nD τ).loc main_arg3) : S128x64.Idx → EReal) (ix2 (upper k) q) := by
  obtain ⟨-, -, -, -, e0, e1, -⟩ := block_indices t
  unfold iblk
  rw [View.read_apply]
  show V m c main_v0 _ = _
  rw [upper_half]
  refine extractStridedSlice_apply _ _ _ _ _ (fun a => ?_)
  match a with
  | ⟨0, _⟩ => show k.val = 0 + (win0_2.index t (0 : Fin 2) * 64 + 1 * k.val); omega
  | ⟨1, _⟩ => show q.val = 0 + (win0_2.index t (1 : Fin 2) * 64 + 1 * q.val); omega

/-- The lower weight block at any point is rows 64–127 of `W`. -/
theorem lower_block (c : Dev nD) (t : Fin cfg0.N) (k q : Fin 64) :
    (iblk m c 3 t : Vec Ideal S64x64 .f32) (ix2 k q) = (m ((c : Thread nD τ).loc main_arg3) : S128x64.Idx → EReal) (ix2 (lower k) q) := by
  obtain ⟨-, -, -, -, -, -, e0, e1, -⟩ := block_indices t
  unfold iblk
  rw [View.read_apply]
  show V m c main_v1 _ = _
  rw [lower_half]
  refine extractStridedSlice_apply _ _ _ _ _ (fun a => ?_)
  match a with
  | ⟨0, _⟩ => show 64 + k.val = 64 + (win0_3.index t (0 : Fin 2) * 64 + 1 * k.val); omega
  | ⟨1, _⟩ => show q.val = 0 + (win0_3.index t (1 : Fin 2) * 64 + 1 * q.val); omega

/-- The bias block at any point is the bias. -/
theorem bias_block (c : Dev nD) (t : Fin cfg0.N) (q : Fin 64) :
    (iblk m c 4 t : Vec Ideal S1x64 .f32) (ix2 0 q) = (m ((c : Thread nD τ).loc main_arg4) : S64.Idx → EReal) (ix1 q) := by
  obtain ⟨-, -, -, -, -, -, -, -, e0, e1, -⟩ := block_indices t
  unfold iblk
  rw [View.read_apply]
  show V m c main_v2 _ = _
  rw [bias_row]
  refine shapeCast_apply _ _ _ (ix1 q) ?_
  show ((⟨1, ![64]⟩ : Shape).rowMajor (ix1 q)).val = ((⟨2, ![1, 64]⟩ : Shape).rowMajor _).val
  rw [Shape.rowMajor_val_one, Shape.rowMajor_val_two]
  show q.val = (win0_4.index t (0 : Fin 2) * 1 + 1 * 0) * 64 + (win0_4.index t (1 : Fin 2) * 64 + 1 * q.val)
  omega

/-! ## What a point writes, and the array after the launch -/

/-- WHAT POINT `t` WRITES BACK is its block of the message array. -/
theorem written_block (c : Dev nD) (t : Fin cfg0.N) :
    (dats m 0 c).flushed 5 t = ((cfg0.win 5).blk t).view.read (Elt Ideal) (messages m c) := by
  show (cfg0.win 5).cut (grid0.coords t) ((dats m 0 c).after 5 t) = _
  rw [after0_5]
  unfold out0_5
  rw [View.canon_unit_zero zero_offsets]
  simp only [View.ld_unit_zero (S := S8000x64) zero_offsets, View.ld_unit_zero (S := S64x64) zero_offsets, View.ld_unit_zero (S := S1x64) zero_offsets]
  funext j
  obtain ⟨p, q, rfl⟩ : ∃ (p : Fin 8000) (q : Fin 64), j = ix2 p q := ⟨j 0, j 1, eq_ix2 j⟩
  show k0_pay1 (F := Ideal) (iblk m c 0 t) (iblk m c 1 t) (iblk m c 2 t) (iblk m c 3 t) (iblk m c 4 t) (ix2 p q)
    = messages m c (((cfg0.win 5).blk t).view.emb (ix2 p q))
  obtain ⟨-, -, -, -, -, -, -, -, -, -, e0, e1⟩ := block_indices t
  have hN : t.val < 100 := lt_of_lt_of_eq t.isLt N_0
  have hp : p.val < 8000 := p.isLt
  have hr : 8000 * t.val + p.val < 800000 := by omega
  refine (payload_apply (iblk m c 0 t) (iblk m c 1 t) (iblk m c 2 t) (iblk m c 3 t) (iblk m c 4 t) p q).trans ?_
  refine Eq.trans ?_ (message_at _ _ _ _ _ ⟨8000 * t.val + p.val, hr⟩ q (Fin.ext ?_) (Fin.ext ?_)).symm
  · simp only [fun k => xi_block m c t p k ⟨_, hr⟩ rfl, fun k => xj_block m c t p k ⟨_, hr⟩ rfl, upper_block, lower_block, bias_block]
  · show win0_5.index t (0 : Fin 2) * 8000 + 1 * p.val = 8000 * t.val + p.val; omega
  · show win0_5.index t (1 : Fin 2) * 64 + 1 * q.val = q.val; omega

/-- An index of the message array is in point `t`'s block iff each coordinate is in the block's range on its axis. -/
theorem mem_block (t : Fin cfg0.N) (i : S800000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v3).slice (win0_5.rect t)).set ↔ _
  rw [View.set_slice_whole, Rect.mem_set_unit]
  exact Iff.rfl

/-- Every edge's row lies in the block of the point `row / 8000`: the 100 blocks tile the 800000 rows. -/
theorem rows_covered (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 100 := N_0
  have ht : (i 0).val / 8000 < cfg0.N := by rw [hN]; omega
  obtain ⟨-, -, -, -, -, -, -, -, -, -, e0, e1⟩ := block_indices ⟨(i 0).val / 8000, ht⟩
  refine ⟨⟨(i 0).val / 8000, ht⟩, flush0_5 _, ?_⟩
  rw [mem_block]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_5.index ⟨(i 0).val / 8000, ht⟩ (1 : Fin 2) * 64 ≤ (i 1).val
      ∧ (i 1).val < win0_5.index ⟨(i 0).val / 8000, ht⟩ (1 : Fin 2) * 64 + 64
    omega

/-- THE MESSAGE ARRAY after the launch is the message function of the arguments. -/
theorem messages_final (c : Dev nD) : (dats m 0 c).arrAt 5 cfg0.N = messages m c :=
  (dats m 0 c).arrAt_eq_of_cover 5 (messages m c) (fun t _ => written_block m c t) rows_covered

end Cert.KernelIdeal.EdgeValue

end
-- ==== Proof.KernelRun.lean ====
/-
  The kernel program's run, with both results named.

  After the launch the host adds each edge's message into the row of its recipient node: a scatter-add of the message
  array into a 50000 × 64 array of zeros, indexed by the recipients as a column. The message array is the message
  function of the arguments (the launch's final array), the recipients are as launched, so the aggregate is that
  scatter-add of the message function.
-/
import proofs.«113563_j12463995093091_1_alg».proof.Proof.KernelBlocks

noncomputable section

namespace Cert.KernelIdeal.EdgeValue

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (m : (ℓ : Loc nD τ sig) → Buf (Elt Ideal) ℓ) (ρ : Dev nD → PrngReg)

/-- Messages summed into their recipients' rows: the scatter-add, into zeros, of a message array `msg`. -/
abbrev aggregate (c : Dev nD) (msg : S800000x64.Idx → EReal) : S50000x64.Idx → EReal :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (m ((c : Thread nD τ).loc main_arg2)))
    msg

/-- What the host lines after the launch leave in the aggregate's buffer. -/
theorem aggregate_final (c : Dev nD) :
    Pipeline.afterTail₀ cfgs (dats m) 0 (V0 m) [hostOps1] c main_v6 = aggregate m c (messages m c) := by
  unfold Pipeline.afterTail₀
  show StableHlo.after hostOps1 _ (Proc.devRef .tc main_v6) = _
  after_results
  have hrec : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have hmsg : Pipeline.withArrays (cfgs 0).spec c (V0 m c) (fun w => (dats m 0 c).arrAt w (cfgs 0).N)
      (Proc.devRef .tc main_v3) = messages m c :=
    (Pipeline.withArrays_arr spec0 launch0.win.arr_inj c _ _ 5).trans (messages_final m c)
  rw [hrec, hmsg]

/-- THE RUN, READ: every weakly fair execution of the kernel program ends with the aggregate at the scatter-add of the
    message function, the message array at the message function, and the five arguments as launched. -/
theorem run : θ_run defs (onTc (τ := τ) (main (F := Ideal))) ⟨m, fun _ => 0, ρ⟩ fun r => ∀ c : Dev nD,
      r.2.mem ((c.tc : Thread nD τ).loc main_v6) = aggregate m c (messages m c)
      ∧ r.2.mem ((c.tc : Thread nD τ).loc main_v3) = messages m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (aggregate_final m c),
      ((h c).1 5).trans (messages_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.EdgeValue

end
-- ==== Proof.lean ====
/-
  An edge MLP and its scatter-sum, kernel against reference, over the extended reals.

  Both programs compute, for each of 800000 edges `r` and 64 channels `j`, the message

      max ( Σ_{k<64} x_i[r,k] · W[k,j]  +  Σ_{k<64} x_j[r,k] · W[64+k,j]  +  b[j] ,  0 )

  and then add every edge's message into the row of its recipient node (a scatter-add into 50000 × 64 zeros).
  The kernel computes the messages 8000 edges at a time, as two 64-term products with the two halves of `W`; the
  reference joins the two feature rows and takes one 128-term product with all of `W`. A 128-term sum is the sum of its
  two halves, which needs only commutativity and associativity of addition, so the messages agree for every input,
  finite or not; the scatter-add is then the same operation applied to the same message array and the same recipients.
  No rewrite was applied to the kernel when it was idealized, so there is nothing to preserve.
-/
import proofs.«113563_j12463995093091_1_alg».proof.Defs
import proofs.«113563_j12463995093091_1_alg».proof.Proof.Gen.Kernel
import proofs.«113563_j12463995093091_1_alg».proof.Proof.Gen.Kernel.Frame
import proofs.«113563_j12463995093091_1_alg».proof.Proof.Gen.KernelIdeal
import proofs.«113563_j12463995093091_1_alg».proof.Proof.Gen.KernelIdeal.Frame
import proofs.«113563_j12463995093091_1_alg».proof.Proof.Gen.ReferenceIdeal
import proofs.«113563_j12463995093091_1_alg».proof.Proof.Gen.ReferenceIdeal.Run
import proofs.«113563_j12463995093091_1_alg».proof.Proof.Gen.ReferenceIdeal.Read
import proofs.«113563_j12463995093091_1_alg».proof.Proof.Gen.Pre_finite_inputs
import proofs.«113563_j12463995093091_1_alg».proof.Proof.Reference
import proofs.«113563_j12463995093091_1_alg».proof.Proof.KernelRun

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the message array at the message function of the arguments and
    the aggregate at its scatter-add by the recipients. -/
theorem algebraic : Cert.algebraic_KernelIdeal_ReferenceIdeal := by
  intro m ρ m' ρ' _ hagree
  refine ⟨fun c => Cert.KernelIdeal.EdgeValue.aggregate m c (Cert.KernelIdeal.EdgeValue.messages m c),
    fun c => Cert.KernelIdeal.EdgeValue.messages m c, Cert.KernelIdeal.EdgeValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.EdgeValue.messages_eq,
      (hagree c).1, (hagree c).2.1, (hagree c).2.2.1, (hagree c).2.2.2.1, (hagree c).2.2.2.2]
    rfl
  · rw [Cert.ReferenceIdeal.Read.val_main_v5_eq, Cert.ReferenceIdeal.EdgeValue.messages_eq,
      (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
